-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Spec.lean ====
/-
  The mathematics of the claim, free of either program.

  A linear layer with a low-rank adapter: for a row `r` of the flattened activations and an output column `o`,

      out[r, o] = (∑ d, x[r, d] · W[o, d] + bias[o]) + s · ∑ ρ, (∑ d, x[r, d] · A[ρ, d]) · B[o, ρ]

  over the extended reals, `s` the scale's value. One side forms each inner sum over the 4096 features at once; the
  other walks the features in 8 consecutive blocks of 512 and adds each block's sum to a running total that starts
  at zero. The two agree because a finite sum in a commutative monoid may be grouped into consecutive blocks: no
  product is distributed and nothing is cancelled, so the law holds at the infinities too and no finiteness of the
  inputs is used.
-/
import Idealize.ShloMosaic.Lib.ValueIdx

noncomputable section

open scoped BigOperators

namespace Cert.LoraSpec

open Idealize.ShloMosaic Idealize.ShloMosaic.ValueIdx

/-! ## A sum over 4096 indices, block by block -/

section Blocks

variable {M : Type*} [AddCommMonoid M]

/-- The sum of `f` over the `k`-th block of 512 consecutive indices. -/
def blockSum (f : Fin 4096 → M) (k : Fin 8) : M :=
  ∑ kk : Fin 512, f ⟨512 * k.val + kk.val, by have := k.isLt; have := kk.isLt; omega⟩

/-- The running total after the first `n` blocks. -/
def partialSum (f : Fin 4096 → M) (n : ℕ) : M :=
  ∑ k ∈ Finset.range n, if h : k < 8 then blockSum f ⟨k, h⟩ else 0

theorem partialSum_zero (f : Fin 4096 → M) : partialSum f 0 = 0 := by
  unfold partialSum; rw [Finset.range_zero, Finset.sum_empty]

/-- One more block: the running total grows by that block's sum. -/
theorem partialSum_succ (f : Fin 4096 → M) (n : ℕ) (h : n < 8) :
    partialSum f (n + 1) = partialSum f n + blockSum f ⟨n, h⟩ := by
  unfold partialSum; rw [Finset.sum_range_succ, dif_pos h]

/-- The first block alone, from a total that starts at zero. -/
theorem partialSum_one (f : Fin 4096 → M) : partialSum f 1 = 0 + blockSum f ⟨0, by omega⟩ := by
  rw [partialSum_succ f 0 (by omega), partialSum_zero]

/-- All eight blocks make up the whole sum. -/
theorem partialSum_eight (f : Fin 4096 → M) : partialSum f 8 = ∑ d : Fin 4096, f d := by
  have h1 : partialSum f 8 = ∑ k : Fin 8, blockSum f k := by
    unfold partialSum
    rw [← Fin.sum_univ_eq_sum_range (fun k => if h : k < 8 then blockSum f ⟨k, h⟩ else 0) 8]
    exact Finset.sum_congr rfl fun k _ => by rw [dif_pos k.isLt]
  rw [h1]
  symm
  calc ∑ d : Fin 4096, f d
      = ∑ x : Fin 8 × Fin 512, f (finProdFinEquiv x) := (Equiv.sum_comp (finProdFinEquiv (m := 8) (n := 512)) f).symm
    _ = ∑ k : Fin 8, ∑ kk : Fin 512, f (finProdFinEquiv (k, kk)) := Fintype.sum_prod_type _
    _ = ∑ k : Fin 8, blockSum f k := Finset.sum_congr rfl fun k _ => Finset.sum_congr rfl fun kk _ =>
        congrArg f (Fin.ext (by show kk.val + 512 * k.val = 512 * k.val + kk.val; omega))

end Blocks

/-! ## The result, as one function of the five arguments -/

/-- The scale's value: the word of the float literal both programs multiply the adapter's term by. -/
abbrev scale : EReal := Ideal.ofBits .f32 0x3F800000#32

/-- `out[b, s, o]` of the layer: the base product plus bias, plus the scaled adapter term. -/
def loraOut (x : (⟨3, ![4, 4096, 4096]⟩ : Shape).Idx → EReal) (W : (⟨2, ![4096, 4096]⟩ : Shape).Idx → EReal)
    (bias : (⟨1, ![4096]⟩ : Shape).Idx → EReal) (A : (⟨2, ![16, 4096]⟩ : Shape).Idx → EReal)
    (B : (⟨2, ![4096, 16]⟩ : Shape).Idx → EReal) : (⟨3, ![4, 4096, 4096]⟩ : Shape).Idx → EReal := fun i =>
  ((∑ d : Fin 4096, x (ix3 (i 0) (i 1) d) * W (ix2 (i 2) d)) + bias (ix1 (i 2)))
    + scale * ∑ ρ : Fin 16, (∑ d : Fin 4096, x (ix3 (i 0) (i 1) d) * A (ix2 ρ d)) * B (ix2 (i 2) ρ)

end Cert.LoraSpec

end
-- ==== Proof.Pieces.lean ====
/-
  What one grid step leaves behind, as pure terms of what it loaded.

  The grid's last axis walks the 4096 features in 8 blocks of 512. At each step the kernel adds the block's product
  `x_blk · W_blkᵀ` to a 1024×1024 running total and `x_blk · A_blkᵀ` to a 1024×16 one; at the first step of a run of 8
  both totals are first reset to zero; at the last step the output block is formed from the two updated totals, the bias
  row and `B`'s rows. Each statement below says that a buffer's contents after the step are that arithmetic applied to
  the step's input blocks (and, away from a reset, to the totals the step before left): the stores cover the whole
  buffer, and a load of a buffer just stored reads the stored value back.
-/
import proofs.«117332_j42356967473845_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The offset of every whole-block access in this kernel is the origin. -/
theorem hz2 : (![0, 0] : Fin 2 → Nat) = fun _ => 0 := funext fun a => by fin_cases a <;> rfl

/-! ## Middle steps (neither first nor last): both accumulators take one more block's product -/

theorem sB0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg9.read_unread,
    View.ld_unit_zero (S := S1024x512) hz2, View.ld_unit_zero (S := S1024x1024) hz2]

theorem sB1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg5.read_unread, harg10.read_unread,
    View.ld_unit_zero (S := S1024x512) hz2, View.ld_unit_zero (S := S16x512) hz2, View.ld_unit_zero (S := S1024x16) hz2]

/-! ## The last step: the same update, and the output block from the updated accumulators -/

theorem sC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg9.read_unread,
    View.ld_unit_zero (S := S1024x512) hz2, View.ld_unit_zero (S := S1024x1024) hz2]

theorem sC1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg5.read_unread, harg10.read_unread,
    View.ld_unit_zero (S := S1024x512) hz2, View.ld_unit_zero (S := S16x512) hz2, View.ld_unit_zero (S := S1024x16) hz2]

theorem oC5 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread,
    harg7.read_unread, harg9.read_unread, harg10.read_unread,
    View.readCov_unit_zero (S := S1024x1024) _ hz2, View.readCov_unit_zero (S := S1024x16) _ hz2,
    View.ld_unit_zero (S := S1024x512) hz2, View.ld_unit_zero (S := S16x512) hz2, View.ld_unit_zero (S := S1024x16) hz2,
    View.ld_unit_zero (S := S1024x1024) hz2, View.ld_unit_zero (S := S1x1024) hz2]

/-! ## The first step: both accumulators are reset to zero, then take the first block's product -/

theorem sA0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz2]
  simp only [View.readAt_eq_ld, harg3.read_unread, harg4.read_unread,
    View.readCov_unit_zero (S := S1024x1024) _ hz2, View.ld_unit_zero (S := S1024x512) hz2]

theorem sA1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz2]
  simp only [View.readAt_eq_ld, harg3.read_unread, harg5.read_unread,
    View.readCov_unit_zero (S := S1024x16) _ hz2, View.ld_unit_zero (S := S1024x512) hz2, View.ld_unit_zero (S := S16x512) hz2]

end Cert.KernelIdeal.Pieces

end
-- ==== Proof.PayIdeal.lean ====
/-
  The kernel's arithmetic, read at one entry over the extended reals.

  There a change of float format is the identity and a matrix product into a zero accumulator is the plain sum of
  products over the contracted axis. So one step turns a running total `acc` into `acc[p, q] + ∑ k, x[p, k] · w[q, k]`
  (both operands are contracted along their second axis), the reset value is `0`, and the output block is
  `(acc[p, q] + bias[0, q]) + s · ∑ ρ, xa[p, ρ] · b[q, ρ]`.
-/
import proofs.«117332_j42356967473845_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayIdeal

open Idealize.ShloMosaic Idealize.ShloMosaic.TcCoe Idealize.ShloMosaic.ValueIdx
open Cert.KernelIdeal Cert.KernelIdeal.Gen

/-! ## Which operand entry each product reads -/

theorem lhsW_0 (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhsW_1 (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhsW_0 (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhsW_1 (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

theorem lhsA_0 (i : S1024x16.Idx) (q : dot_S1024x512_S16x512_S1024x16_1_1_0_0_n_n.contr.Idx) : (dot_S1024x512_S16x512_S1024x16_1_1_0_0_n_n.lhsIdx i q 0).val = (i 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
theorem lhsA_1 (i : S1024x16.Idx) (q : dot_S1024x512_S16x512_S1024x16_1_1_0_0_n_n.contr.Idx) : (dot_S1024x512_S16x512_S1024x16_1_1_0_0_n_n.lhsIdx i q 1).val = (q ⟨0, by decide⟩).val :=
  dot_S1024x512_S16x512_S1024x16_1_1_0_0_n_n.lhsIdx_val_of_single rfl i q
theorem rhsA_0 (i : S1024x16.Idx) (q : dot_S1024x512_S16x512_S1024x16_1_1_0_0_n_n.contr.Idx) : (dot_S1024x512_S16x512_S1024x16_1_1_0_0_n_n.rhsIdx i q 0).val = (i 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
theorem rhsA_1 (i : S1024x16.Idx) (q : dot_S1024x512_S16x512_S1024x16_1_1_0_0_n_n.contr.Idx) : (dot_S1024x512_S16x512_S1024x16_1_1_0_0_n_n.rhsIdx i q 1).val = (q ⟨0, by decide⟩).val :=
  dot_S1024x512_S16x512_S1024x16_1_1_0_0_n_n.rhsIdx_val_of_single rfl i q

theorem lhsB_0 (i : S1024x1024.Idx) (q : dot_S1024x16_S1024x16_S1024x1024_1_1_0_0_n_n.contr.Idx) : (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhsB_1 (i : S1024x1024.Idx) (q : dot_S1024x16_S1024x16_S1024x1024_1_1_0_0_n_n.contr.Idx) : (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhsB_0 (i : S1024x1024.Idx) (q : dot_S1024x16_S1024x16_S1024x1024_1_1_0_0_n_n.contr.Idx) : (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhsB_1 (i : S1024x1024.Idx) (q : dot_S1024x16_S1024x16_S1024x1024_1_1_0_0_n_n.contr.Idx) : (dot_S1024x16_S1024x16_S1024x1024_1_1_0_0_n_n.rhsIdx i q 1).val = (q ⟨0, by decide⟩).val :=
  dot_S1024x16_S1024x16_S1024x1024_1_1_0_0_n_n.rhsIdx_val_of_single rfl i q

/-! ## The three products as sums -/

/-- The product into a zero accumulator, at `(p, q)`: the sum over the contracted axis of left row `p` times right row `q`. -/
theorem matW_apply (l : FVec Ideal S1024x512 .bf16) (r : FVec Ideal S1024x512 .bf16) (p : Fin 1024) (q : Fin 1024) :
    matmul dot_S1024x512_S1024x512_S1024x1024_1_1_0_0_n_n none l r (constant S1024x1024 .f32 0x00000000#32) (ix2 p q) = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhsW_0 _ _
    | ⟨1, _⟩ => exact (lhsW_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhsW_0 _ _
    | ⟨1, _⟩ => exact (rhsW_1 _ _).trans hk)
  rw [el, er]

/-- The product into a zero accumulator, at `(p, q)`: the sum over the contracted axis of left row `p` times right row `q`. -/
theorem matA_apply (l : FVec Ideal S1024x512 .bf16) (r : FVec Ideal S16x512 .bf16) (p : Fin 1024) (q : Fin 16) :
    matmul dot_S1024x512_S16x512_S1024x16_1_1_0_0_n_n none l r (constant S1024x16 .f32 0x00000000#32) (ix2 p q) = ∑ k : Fin 512, l (ix2 p k) * r (ix2 q k) := by
  simp only [matmul]
  rw [Ideal.matmul_constant_zero_apply, ← Equiv.sum_comp (contrEquiv1 dot_S1024x512_S16x512_S1024x16_1_1_0_0_n_n 512 rfl rfl).symm]
  refine Finset.sum_congr rfl fun k _ => ?_
  have hk := contrEquiv1_symm_val dot_S1024x512_S16x512_S1024x16_1_1_0_0_n_n 512 rfl rfl k
  have el : dot_S1024x512_S16x512_S1024x16_1_1_0_0_n_n.lhsIdx (ix2 p q) ((contrEquiv1 dot_S1024x512_S16x512_S1024x16_1_1_0_0_n_n 512 rfl rfl).symm k) = ix2 p k := funext fun a => Fin.ext (by
    match a with
    | ⟨0, _⟩ => exact lhsA_0 _ _
    | ⟨1, _⟩ => exact (lhsA_1 _ _).trans hk)
  have er : dot_S1024x512_S16x512_S1024x16_1_1_0_0_n_n.rhsIdx (ix2 p q) ((contrEquiv1 dot_S1024x512_S16x512_S1024x16_1_1_0_0_n_n 512 rfl rfl).symm k) = ix2 q k := funext fun a => Fin.ext (by
    match a with
    | ⟨0, _⟩ => exact rhsA_0 _ _
    | ⟨1, _⟩ => exact (rhsA_1 _ _).trans hk)
  rw [el, er]

/-- The product into a zero accumulator, at `(p, q)`: the sum over the contracted axis of left row `p` times right row `q`. -/
theorem matB_apply (l : FVec Ideal S1024x16 .bf16) (r : FVec Ideal S1024x16 .bf16) (p : Fin 1024) (q : Fin 1024) :
    matmul dot_S1024x16_S1024x16_S1024x1024_1_1_0_0_n_n none l r (constant S1024x1024 .f32 0x00000000#32) (ix2 p q) = ∑ k : Fin 16, l (ix2 p k) * r (ix2 q k) := by
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact lhsB_0 _ _
    | ⟨1, _⟩ => exact (lhsB_1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact rhsB_0 _ _
    | ⟨1, _⟩ => exact (rhsB_1 _ _).trans hk)
  rw [el, er]

/-! ## The payloads -/

/-- The reset value of the large running total. -/
theorem pay1_apply (j : S1024x1024.Idx) : k0_pay1 (F := Ideal) j = 0 := by
  unfold k0_pay1
  simp only [shapeCast_self]
  exact Ideal.ofBits_zero_f32

/-- The reset value of the narrow running total. -/
theorem pay2_apply (j : S1024x16.Idx) : k0_pay2 (F := Ideal) j = 0 := by
  unfold k0_pay2
  simp only [shapeCast_self]
  exact Ideal.ofBits_zero_f32

/-- One step of the large total: it grows by the block's product of `x` rows with `W` rows. -/
theorem pay4_apply (x0 x1 : Vec Ideal S1024x512 .f32) (acc : Vec Ideal S1024x1024 .f32) (p q : Fin 1024) :
    k0_pay4 x0 x1 acc (ix2 p q) = acc (ix2 p q) + ∑ k : Fin 512, x0 (ix2 p k) * x1 (ix2 q k) := by
  unfold k0_pay4 k0_pay3
  simp only [shapeCast_self]
  refine (addf_apply _ _ _).trans ?_
  rw [matW_apply]
  rfl

/-- One step of the narrow total: it grows by the block's product of `x` rows with `A` rows. -/
theorem pay5_apply (x0 : Vec Ideal S1024x512 .f32) (x2 : Vec Ideal S16x512 .f32) (acc : Vec Ideal S1024x16 .f32) (p : Fin 1024) (r : Fin 16) :
    k0_pay5 x0 x2 acc (ix2 p r) = acc (ix2 p r) + ∑ k : Fin 512, x0 (ix2 p k) * x2 (ix2 r k) := by
  unfold k0_pay5 k0_pay3
  simp only [shapeCast_self]
  refine (addf_apply _ _ _).trans ?_
  rw [matA_apply]
  rfl

/-- The output block: the large total plus the bias row, plus the scaled product of the narrow total's rows with `B`'s rows. -/
theorem pay6_apply (b xa : Vec Ideal S1024x16 .f32) (acc : Vec Ideal S1024x1024 .f32) (bias : Vec Ideal S1x1024 .f32) (p q : Fin 1024) :
    k0_pay6 b xa acc bias (ix2 p q)
      = (acc (ix2 p q) + bias (ix2 (0 : Fin 1) q)) + Ideal.ofBits .f32 0x3F800000#32 * ∑ r : Fin 16, xa (ix2 p r) * b (ix2 q r) := by
  unfold k0_pay6
  simp only [shapeCast_self]
  refine (addf_apply _ _ _).trans ?_
  refine congrArg₂ (· + ·) ?_ ?_
  · refine (addf_apply _ _ _).trans ?_
    refine congrArg (acc (ix2 p q) + ·) ?_
    exact broadcastTo_apply _ _ _ (ix2 (0 : Fin 1) q) (fun a => by
      match a with
      | ⟨0, _⟩ => rfl
      | ⟨1, _⟩ => rfl)
  · refine (mulf_apply _ _ _).trans ?_
    rw [matB_apply]
    rfl

end Cert.KernelIdeal.PayIdeal

end
-- ==== Proof.Blocks.lean ====
/-
  Where each grid step's input blocks sit in the arrays.

  The 512 grid points are ordered with the feature-block counter fastest: point `t` is row block `t / 32` (of 16),
  column block `t / 8 % 4` (of 4) and feature block `t % 8` (of 8). At that point the kernel sees rows
  `1024·(t/32) + p` of the activations and rows `1024·(t/8%4) + q` of the weight, both at features `512·(t%8) + k`;
  all 16 rows of `A` at the same features; rows `1024·(t/8%4) + q` of `B`; and entries `1024·(t/8%4) + q` of the bias row.
-/
import proofs.«117332_j42356967473845_1_alg».proof.Proof.Gen.KernelIdeal.Frame
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays as the region finds them, and a step's blocks, at their literal types -/

/-- The activations, flattened to 16384 rows of 4096 features. -/
abbrev xarr (c : Dev nD) : Vec Ideal S16384x4096 .f32 := V m c main_v0
/-- The base weight: 4096 output rows of 4096 features. -/
abbrev warr (c : Dev nD) : Vec Ideal S4096x4096 .f32 := V m c main_arg1
/-- The adapter's down-projection: 16 rows of 4096 features. -/
abbrev aarr (c : Dev nD) : Vec Ideal S16x4096 .f32 := V m c main_arg3
/-- The adapter's up-projection: 4096 output rows of 16. -/
abbrev barr (c : Dev nD) : Vec Ideal S4096x16 .f32 := V m c main_arg4
/-- The bias, as one row of 4096. -/
abbrev biasarr (c : Dev nD) : Vec Ideal S1x4096 .f32 := V m c main_v1

abbrev xblk (c : Dev nD) (t : Fin cfg0.N) : Vec Ideal S1024x512 .f32 := iblk m c 0 t
abbrev wblk (c : Dev nD) (t : Fin cfg0.N) : Vec Ideal S1024x512 .f32 := iblk m c 1 t
abbrev ablk (c : Dev nD) (t : Fin cfg0.N) : Vec Ideal S16x512 .f32 := iblk m c 2 t
abbrev bblk (c : Dev nD) (t : Fin cfg0.N) : Vec Ideal S1024x16 .f32 := iblk m c 3 t
abbrev biasblk (c : Dev nD) (t : Fin cfg0.N) : Vec Ideal S1x1024 .f32 := iblk m c 4 t

theorem lt512 (t : Fin cfg0.N) : t.val < 512 := lt_of_lt_of_eq t.isLt (show cfg0.N = 512 from N_0)

/-! ## The index maps, decided once over the grid -/

theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-! ## A block's entry is an array's entry -/

theorem xblk_apply (c : Dev nD) (t : Fin cfg0.N) (p : Fin 1024) (k : Fin 512) (R : Fin 16384) (D : Fin 4096)
    (hR : R.val = 1024 * (t.val / 32) + p.val) (hD : D.val = 512 * (t.val % 8) + k.val) :
    xblk m c t (ix2 p k) = xarr m c (ix2 R D) := by
  obtain ⟨e0, e1, -⟩ := idx_facts t
  show V m c main_v0 (((cfg0.win 0).blk t).view.emb (ix2 p k)) = V m c main_v0 (ix2 R D)
  refine congrArg _ (funext fun a => Fin.ext ?_)
  match a with
  | ⟨0, _⟩ => show win0_0.index t (0 : Fin 2) * 1024 + 1 * p.val = R.val; omega
  | ⟨1, _⟩ => show win0_0.index t (1 : Fin 2) * 512 + 1 * k.val = D.val; omega

theorem wblk_apply (c : Dev nD) (t : Fin cfg0.N) (q : Fin 1024) (k : Fin 512) (C : Fin 4096) (D : Fin 4096)
    (hC : C.val = 1024 * (t.val / 8 % 4) + q.val) (hD : D.val = 512 * (t.val % 8) + k.val) :
    wblk m c t (ix2 q k) = warr m c (ix2 C D) := by
  obtain ⟨-, -, e0, e1, -⟩ := idx_facts t
  show V m c main_arg1 (((cfg0.win 1).blk t).view.emb (ix2 q k)) = V m c main_arg1 (ix2 C D)
  refine congrArg _ (funext fun a => Fin.ext ?_)
  match a with
  | ⟨0, _⟩ => show win0_1.index t (0 : Fin 2) * 1024 + 1 * q.val = C.val; omega
  | ⟨1, _⟩ => show win0_1.index t (1 : Fin 2) * 512 + 1 * k.val = D.val; omega

theorem ablk_apply (c : Dev nD) (t : Fin cfg0.N) (r : Fin 16) (k : Fin 512) (D : Fin 4096)
    (hD : D.val = 512 * (t.val % 8) + k.val) :
    ablk m c t (ix2 r k) = aarr m c (ix2 r D) := by
  obtain ⟨-, -, -, -, e0, e1, -⟩ := idx_facts t
  show V m c main_arg3 (((cfg0.win 2).blk t).view.emb (ix2 r k)) = V m c main_arg3 (ix2 r D)
  refine congrArg _ (funext fun a => Fin.ext ?_)
  match a with
  | ⟨0, _⟩ => show win0_2.index t (0 : Fin 2) * 16 + 1 * r.val = r.val; omega
  | ⟨1, _⟩ => show win0_2.index t (1 : Fin 2) * 512 + 1 * k.val = D.val; omega

theorem bblk_apply (c : Dev nD) (t : Fin cfg0.N) (q : Fin 1024) (r : Fin 16) (C : Fin 4096)
    (hC : C.val = 1024 * (t.val / 8 % 4) + q.val) :
    bblk m c t (ix2 q r) = barr m c (ix2 C r) := by
  obtain ⟨-, -, -, -, -, -, e0, e1, -⟩ := idx_facts t
  show V m c main_arg4 (((cfg0.win 3).blk t).view.emb (ix2 q r)) = V m c main_arg4 (ix2 C r)
  refine congrArg _ (funext fun a => Fin.ext ?_)
  match a with
  | ⟨0, _⟩ => show win0_3.index t (0 : Fin 2) * 1024 + 1 * q.val = C.val; omega
  | ⟨1, _⟩ => show win0_3.index t (1 : Fin 2) * 16 + 1 * r.val = r.val; omega

theorem biasblk_apply (c : Dev nD) (t : Fin cfg0.N) (q : Fin 1024) (C : Fin 4096)
    (hC : C.val = 1024 * (t.val / 8 % 4) + q.val) :
    biasblk m c t (ix2 (0 : Fin 1) q) = biasarr m c (ix2 (0 : Fin 1) C) := by
  obtain ⟨-, -, -, -, -, -, -, -, e0, e1, -⟩ := idx_facts t
  show V m c main_v1 (((cfg0.win 4).blk t).view.emb (ix2 (0 : Fin 1) q)) = V m c main_v1 (ix2 (0 : Fin 1) C)
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 1024 + 1 * q.val = C.val; omega

end Cert.KernelIdeal.KVal

end
-- ==== Proof.Invariant.lean ====
/-
  The running totals, point by point.

  Fix a row block `i` and a column block `j`. The eight grid points of that pair come one after another, feature
  block 0 to 7. After the point of feature block `k` the large total holds, at `(p, q)`, the sum of
  `x[1024 i + p, d] · W[1024 j + q, d]` over the first `k + 1` blocks of features, and the narrow total the same with
  `A[ρ, d]` in `W`'s place: the first point starts from zero, every later one adds its block to what the point before
  left. At the last point both are the full sums over all 4096 features, and the output block is read off them.
-/
import proofs.«117332_j42356967473845_1_alg».proof.Proof.Spec
import proofs.«117332_j42356967473845_1_alg».proof.Proof.Pieces
import proofs.«117332_j42356967473845_1_alg».proof.Proof.PayIdeal
import proofs.«117332_j42356967473845_1_alg».proof.Proof.Blocks

set_option maxRecDepth 16384

noncomputable section

open scoped BigOperators

namespace Cert.KernelIdeal.KVal

open Idealize.ShloMosaic Idealize.ShloMosaic.TcCoe Idealize.ShloMosaic.ValueIdx Idealize.SL.Sem
open Cert.KernelIdeal Cert.KernelIdeal.Gen Cert.KernelIdeal.Pieces Cert.KernelIdeal.PayIdeal Cert.LoraSpec

variable (m : (ℓ : Loc nD τ sig) → Buf (Elt Ideal) ℓ)

/-! ## Rows, columns and the summands -/

/-- Row `p` of row block `i`, among the 16384 rows. -/
abbrev rowOf (i : ℕ) (p : Fin 1024) : Fin 16384 := ⟨(1024 * i + p.val) % 16384, Nat.mod_lt _ (by decide)⟩
/-- Column `q` of column block `j`, among the 4096 columns. -/
abbrev colOf (j : ℕ) (q : Fin 1024) : Fin 4096 := ⟨(1024 * j + q.val) % 4096, Nat.mod_lt _ (by decide)⟩

/-- The base term's summand at feature `d`. -/
def termW (c : Dev nD) (R : Fin 16384) (C : Fin 4096) : Fin 4096 → EReal := fun d => xarr m c (ix2 R d) * warr m c (ix2 C d)
/-- The adapter's inner summand at feature `d`. -/
def termA (c : Dev nD) (R : Fin 16384) (r : Fin 16) : Fin 4096 → EReal := fun d => xarr m c (ix2 R d) * aarr m c (ix2 r d)

/-- The large total for block pair `(i, j)` after `s` feature blocks. -/
def accW (c : Dev nD) (i j s : ℕ) : Vec Ideal S1024x1024 .f32 := fun y => partialSum (termW m c (rowOf i (y 0)) (colOf j (y 1))) s
/-- The narrow total for row block `i` after `s` feature blocks. -/
def accA (c : Dev nD) (i s : ℕ) : Vec Ideal S1024x16 .f32 := fun y => partialSum (termA m c (rowOf i (y 0)) (y 1)) s

theorem accW_apply (c : Dev nD) (i j s : ℕ) (p q : Fin 1024) :
    accW m c i j s (ix2 p q) = partialSum (termW m c (rowOf i p) (colOf j q)) s := rfl
theorem accA_apply (c : Dev nD) (i s : ℕ) (p : Fin 1024) (r : Fin 16) :
    accA m c i s (ix2 p r) = partialSum (termA m c (rowOf i p) r) s := rfl

/-- The reset value is the total after no block. -/
theorem reset_eq_accW (c : Dev nD) (i j : ℕ) : (k0_pay1 (F := Ideal) : Vec Ideal S1024x1024 .f32) = accW m c i j 0 := by
  funext y
  rw [pay1_apply]
  exact (partialSum_zero _).symm
theorem reset_eq_accA (c : Dev nD) (i : ℕ) : (k0_pay2 (F := Ideal) : Vec Ideal S1024x16 .f32) = accA m c i 0 := by
  funext y
  rw [pay2_apply]
  exact (partialSum_zero _).symm

/-! ## One step -/

/-- A step at point `t` turns the large total after `s = t % 8` blocks into the total after `s + 1`. -/
theorem stepW (c : Dev nD) (t : Fin cfg0.N) (s : ℕ) (hs : s = t.val % 8) :
    k0_pay4 (xblk m c t) (wblk m c t) (accW m c (t.val / 32) (t.val / 8 % 4) s) = accW m c (t.val / 32) (t.val / 8 % 4) (s + 1) := by
  have hN := lt512 t
  have h8 : s < 8 := by omega
  funext y
  obtain ⟨p, q, rfl⟩ : ∃ (p q : Fin 1024), y = ix2 p q := ⟨y 0, y 1, eq_ix2 y⟩
  rw [pay4_apply, accW_apply, accW_apply, partialSum_succ _ s h8]
  refine congrArg (_ + ·) ?_
  unfold blockSum
  refine Finset.sum_congr rfl fun k _ => ?_
  have hp := p.isLt; have hq := q.isLt; have hk := k.isLt
  rw [xblk_apply m c t p k (rowOf (t.val / 32) p) ⟨512 * s + k.val, by omega⟩
      (by show (1024 * (t.val / 32) + p.val) % 16384 = _; omega) (by show 512 * s + k.val = _; omega),
    wblk_apply m c t q k (colOf (t.val / 8 % 4) q) ⟨512 * s + k.val, by omega⟩
      (by show (1024 * (t.val / 8 % 4) + q.val) % 4096 = _; omega) (by show 512 * s + k.val = _; omega)]
  rfl

/-- The same for the narrow total. -/
theorem stepA (c : Dev nD) (t : Fin cfg0.N) (s : ℕ) (hs : s = t.val % 8) :
    k0_pay5 (xblk m c t) (ablk m c t) (accA m c (t.val / 32) s) = accA m c (t.val / 32) (s + 1) := by
  have hN := lt512 t
  have h8 : s < 8 := by omega
  funext y
  obtain ⟨p, r, rfl⟩ : ∃ (p : Fin 1024) (r : Fin 16), y = ix2 p r := ⟨y 0, y 1, eq_ix2 y⟩
  rw [pay5_apply, accA_apply, accA_apply, partialSum_succ _ s h8]
  refine congrArg (_ + ·) ?_
  unfold blockSum
  refine Finset.sum_congr rfl fun k _ => ?_
  have hp := p.isLt; have hk := k.isLt
  rw [xblk_apply m c t p k (rowOf (t.val / 32) p) ⟨512 * s + k.val, by omega⟩
      (by show (1024 * (t.val / 32) + p.val) % 16384 = _; omega) (by show 512 * s + k.val = _; omega),
    ablk_apply m c t r k ⟨512 * s + k.val, by omega⟩ (by show 512 * s + k.val = _; omega)]
  rfl

/-! ## The invariant -/

/-- What the invariant says of position `n`. -/
def Inv (c : Dev nD) (n : ℕ) (hn : n < cfg0.N) : Prop :=
  (outsAt0 m c n hn).2.1 = accW m c (n / 32) (n / 8 % 4) (n % 8 + 1)
    ∧ (outsAt0 m c n hn).2.2 = accA m c (n / 32) (n % 8 + 1)

/-- At the first point of a block pair both totals are one block from zero. -/
theorem inv_first (c : Dev nD) (t : Fin cfg0.N) (h0 : t.val % 8 = 0) : Inv m c t.val t.isLt := by
  have h1 : ¬t.val % 8 = 7 := by omega
  unfold Inv
  rw [outsAt0_A m c t h0 h1]
  dsimp only
  rw [show t.val % 8 + 1 = 0 + 1 from by rw [h0]]
  refine ⟨(sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_,
    (sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_⟩
  · rw [reset_eq_accW m c (t.val / 32) (t.val / 8 % 4)]
    exact stepW m c t 0 h0.symm
  · rw [reset_eq_accA m c (t.val / 32)]
    exact stepA m c t 0 h0.symm

/-- At any later point both totals extend what the point before left. -/
theorem inv_next (c : Dev nD) (t : Fin cfg0.N) (h0 : ¬t.val % 8 = 0)
    (hprev : Inv m c (t.val - 1) (Nat.lt_of_le_of_lt (Nat.sub_le _ _) t.isLt)) : Inv m c t.val t.isLt := by
  have e1 : (t.val - 1) / 32 = t.val / 32 := by omega
  have e2 : (t.val - 1) / 8 % 4 = t.val / 8 % 4 := by omega
  have e3 : (t.val - 1) % 8 + 1 = t.val % 8 := by omega
  obtain ⟨hp1, hp2⟩ := hprev
  rw [e1, e2, e3] at hp1
  rw [e1, e3] at hp2
  unfold Inv
  by_cases h1 : t.val % 8 = 7
  · rw [outsAt0_C m c t h0 h1]
    dsimp only
    refine ⟨(sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_,
      (sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_⟩
    · rw [hp1]; exact stepW m c t (t.val % 8) rfl
    · rw [hp2]; exact stepA m c t (t.val % 8) rfl
  · rw [outsAt0_B m c t h0 h1]
    dsimp only
    refine ⟨(sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_,
      (sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_⟩
    · rw [hp1]; exact stepW m c t (t.val % 8) rfl
    · rw [hp2]; exact stepA m c t (t.val % 8) rfl

/-- The invariant at every position, by induction along the grid's order. -/
theorem inv (c : Dev nD) : ∀ (n : ℕ) (hn : n < cfg0.N), Inv m c n hn := by
  intro n
  induction n with
  | zero => intro hn; exact inv_first m c ⟨0, hn⟩ (Nat.zero_mod 8)
  | succ n ih =>
    intro hn
    by_cases h0 : (n + 1) % 8 = 0
    · exact inv_first m c ⟨n + 1, hn⟩ h0
    · exact inv_next m c ⟨n + 1, hn⟩ h0 (ih (Nat.lt_of_succ_lt hn))

end Cert.KernelIdeal.KVal

end
-- ==== Proof.Final.lean ====
/-
  From the last step's block to the whole result.

  At the eighth point of a block pair the running totals are the full sums over the 4096 features, so the block the
  kernel stores is `out2` — the layer's formula on the flattened rows — read at rows `1024 i + p` and columns
  `1024 j + q`. Only those eighth points write their block back; their 64 blocks of 1024×1024 tile the 16384×4096
  result, block `(r / 1024, o / 1024)` holding entry `(r, o)`. The lines after the region lay the rows out again as
  4 × 4096, and the lines before it had flattened the activations and turned the bias into a row: undoing both gives
  `loraOut` of the arguments as launched.
-/
import proofs.«117332_j42356967473845_1_alg».proof.Proof.Invariant
import Idealize.ShloMosaic.Lib.ValueLayout
import Idealize.ShloMosaic.Lib.StableHlo.Run

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pieces Cert.KernelIdeal.PayIdeal Cert.LoraSpec

variable (m : (ℓ : Loc nD τ sig) → Buf (Elt Ideal) ℓ) (ρ : Dev nD → PrngReg)

/-! ## The result on the flattened rows -/

/-- Entry `(r, o)` of the 16384×4096 result, from the arrays as the region finds them. -/
def out2 (c : Dev nD) : Vec Ideal S16384x4096 .f32 := fun y =>
  ((∑ d : Fin 4096, xarr m c (ix2 (n0 := 16384) (n1 := 4096) (y 0) d) * warr m c (ix2 (n0 := 4096) (n1 := 4096) (y 1) d))
      + biasarr m c (ix2 (n0 := 1) (n1 := 4096) (0 : Fin 1) (y 1)))
    + scale * ∑ r : Fin 16, (∑ d : Fin 4096, xarr m c (ix2 (n0 := 16384) (n1 := 4096) (y 0) d) * aarr m c (ix2 r d))
        * barr m c (ix2 (n0 := 4096) (n1 := 16) (y 1) r)

theorem out2_apply (c : Dev nD) (R : Fin 16384) (C : Fin 4096) :
    out2 m c (ix2 R C) = ((∑ d : Fin 4096, termW m c R C d) + biasarr m c (ix2 (0 : Fin 1) C))
      + scale * ∑ r : Fin 16, (∑ d : Fin 4096, termA m c R r d) * barr m c (ix2 C r) := rfl

/-! ## The block stored at a last step -/

theorem out_last (c : Dev nD) (t : Fin cfg0.N) (h1 : t.val % 8 = 7) :
    (outsAt0 m c t.val t.isLt).1
      = fun y : S1024x1024.Idx => out2 m c (ix2 (rowOf (t.val / 32) (y 0)) (colOf (t.val / 8 % 4) (y 1))) := by
  have hN := lt512 t
  have h0 : ¬t.val % 8 = 0 := by omega
  have hi := inv m c t.val t.isLt
  unfold Inv at hi
  rw [show t.val % 8 + 1 = 8 from by omega] at hi
  rw [outsAt0_C m c t h0 h1] at hi ⊢
  dsimp only at hi ⊢
  obtain ⟨hi1, hi2⟩ := hi
  rw [sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2] at hi1
  rw [sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2] at hi2
  refine (oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  rw [hi1, hi2]
  funext y
  obtain ⟨p, q, rfl⟩ : ∃ (p q : Fin 1024), y = ix2 p q := ⟨y 0, y 1, eq_ix2 y⟩
  have hp := p.isLt; have hq := q.isLt
  refine (pay6_apply (bblk m c t) (accA m c (t.val / 32) 8) (accW m c (t.val / 32) (t.val / 8 % 4) 8) (biasblk m c t) p q).trans ?_
  show _ = out2 m c (ix2 (rowOf (t.val / 32) p) (colOf (t.val / 8 % 4) q))
  rw [out2_apply, accW_apply, partialSum_eight,
    biasblk_apply m c t q (colOf (t.val / 8 % 4) q) (by show (1024 * (t.val / 8 % 4) + q.val) % 4096 = _; omega)]
  refine congrArg₂ (· + ·) rfl (congrArg (scale * ·) ?_)
  refine Finset.sum_congr rfl fun r _ => ?_
  rw [accA_apply, partialSum_eight,
    bblk_apply m c t q r (colOf (t.val / 8 % 4) q) (by show (1024 * (t.val / 8 % 4) + q.val) % 4096 = _; omega)]

/-! ## What is written back, and where -/

/-- The output's block is written back exactly at the last step of each block pair. -/
theorem flush_iff : ∀ t : Fin cfg0.N, (cfg0.win 5).flush t = true ↔ t.val % 8 = 7 :=
  (by decide +kernel : ∀ t : Fin grid0.N, _)

/-- What such a point writes back is its block of `out2`. -/
theorem flushed_eq (c : Dev nD) (t : Fin cfg0.N) (hf : (cfg0.win 5).flush t = true) :
    (dats m 0 c).flushed 5 t = ((cfg0.win 5).blk t).view.read (Elt Ideal) (out2 m c) := by
  have hN := lt512 t
  have h1 := (flush_iff t).mp hf
  obtain ⟨-, -, -, -, -, -, -, -, -, -, e0, e1⟩ := idx_facts t
  show (cfg0.win 5).cut (grid0.coords t) ((dats m 0 c).after 5 t) = _
  rw [after0_5, out_last m c t h1]
  funext y
  show out2 m c (ix2 (rowOf (t.val / 32) (y 0)) (colOf (t.val / 8 % 4) (y 1))) = out2 m c (((cfg0.win 5).blk t).view.emb y)
  refine congrArg _ (funext fun a => Fin.ext ?_)
  have hy0 : (y 0).val < 1024 := (y 0).isLt
  have hy1 : (y 1).val < 1024 := (y 1).isLt
  match a with
  | ⟨0, _⟩ => show (1024 * (t.val / 32) + (y 0).val) % 16384 = win0_5.index t (0 : Fin 2) * 1024 + 1 * (y 0).val; omega
  | ⟨1, _⟩ => show (1024 * (t.val / 8 % 4) + (y 1).val) % 4096 = win0_5.index t (1 : Fin 2) * 1024 + 1 * (y 1).val; omega

/-- An entry lies in a point's block iff each coordinate lies in the block's range on its axis. -/
theorem mem_blk (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry is in the block of the last step of its block pair. -/
theorem cover (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  have hlt : ((i 0).val / 1024 * 4 + (i 1).val / 1024) * 8 + 7 < cfg0.N := by
    rw [show cfg0.N = 512 from N_0]; omega
  refine ⟨⟨((i 0).val / 1024 * 4 + (i 1).val / 1024) * 8 + 7, hlt⟩, (flush_iff _).mpr (by show (((i 0).val / 1024 * 4 + (i 1).val / 1024) * 8 + 7) % 8 = 7; omega), ?_⟩
  rw [mem_blk]
  obtain ⟨-, -, -, -, -, -, -, -, -, -, e0, e1⟩ := idx_facts ⟨((i 0).val / 1024 * 4 + (i 1).val / 1024) * 8 + 7, hlt⟩
  intro a
  match a with
  | ⟨0, _⟩ =>
    show win0_5.index _ (0 : Fin 2) * 1024 ≤ (i 0).val ∧ (i 0).val < win0_5.index _ (0 : Fin 2) * 1024 + 1024
    rw [e0]; show (((i 0).val / 1024 * 4 + (i 1).val / 1024) * 8 + 7) / 32 * 1024 ≤ (i 0).val ∧ (i 0).val < (((i 0).val / 1024 * 4 + (i 1).val / 1024) * 8 + 7) / 32 * 1024 + 1024
    omega
  | ⟨1, _⟩ =>
    show win0_5.index _ (1 : Fin 2) * 1024 ≤ (i 1).val ∧ (i 1).val < win0_5.index _ (1 : Fin 2) * 1024 + 1024
    rw [e1]; show (((i 0).val / 1024 * 4 + (i 1).val / 1024) * 8 + 7) / 8 % 4 * 1024 ≤ (i 1).val ∧ (i 1).val < (((i 0).val / 1024 * 4 + (i 1).val / 1024) * 8 + 7) / 8 % 4 * 1024 + 1024
    omega

/-- So the region leaves `out2` in its result array. -/
theorem final (c : Dev nD) : (dats m 0 c).arrAt 5 cfg0.N = out2 m c :=
  (dats m 0 c).arrAt_eq_of_cover 5 (out2 m c) (flushed_eq m c) cover

end Cert.KernelIdeal.KVal

end
-- ==== Proof.KernelRun.lean ====
/-
  The kernel's run, read: its result is `loraOut` of the arguments as launched.

  Before the region the activations are flattened (row `4096 b + s` of the flat array is row `(b, s)`) and the bias is
  laid out as one row; after it the flat result is laid out as 4 × 4096 rows again. Both layouts keep every entry at its
  row-major position, so the flat formula `out2` read back through them is the layer's formula on the original arrays.
-/
import proofs.«117332_j42356967473845_1_alg».proof.Proof.Final

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.LoraSpec

variable (m : (ℓ : Loc nD τ sig) → Buf (Elt Ideal) ℓ) (ρ : Dev nD → PrngReg)

/-! ## The arrays the region finds, from the launch arguments -/

theorem xarr_eq (c : Dev nD) :
    xarr m c = shapeCast S16384x4096 (m ((c.tc : Thread nD τ).loc main_arg0)) shapeCasts_S4x4096x4096_S16384x4096 := by
  show StableHlo.after hostOps0 (fun b => m (c, b)) (Proc.devRef .tc main_v0) = _
  after_results
  rfl

theorem biasarr_eq (c : Dev nD) :
    biasarr m c = shapeCast S1x4096 (m ((c.tc : Thread nD τ).loc main_arg2)) shapeCasts_S4096_S1x4096 := by
  show StableHlo.after hostOps0 (fun b => m (c, b)) (Proc.devRef .tc main_v1) = _
  after_results
  rfl

theorem warr_eq (c : Dev nD) : warr m c = m ((c.tc : Thread nD τ).loc main_arg1) := V_main_arg1 m c
theorem aarr_eq (c : Dev nD) : aarr m c = m ((c.tc : Thread nD τ).loc main_arg3) := V_main_arg3 m c
theorem barr_eq (c : Dev nD) : barr m c = m ((c.tc : Thread nD τ).loc main_arg4) := V_main_arg4 m c

/-- A flat row's entry is the original array's entry at the same row-major position. -/
theorem xarr_apply (c : Dev nD) (b : Fin 4) (s d : Fin 4096) (R : Fin 16384) (hR : R.val = 4096 * b.val + s.val) :
    xarr m c (ix2 R d) = m ((c.tc : Thread nD τ).loc main_arg0) (ix3 b s d) := by
  rw [xarr_eq]
  exact shapeCast_apply (s := S4x4096x4096) (t := S16384x4096) _ _ _ _ (by
    show ((⟨3, ![4, 4096, 4096]⟩ : Shape).rowMajor (ix3 b s d)).val = ((⟨2, ![16384, 4096]⟩ : Shape).rowMajor (ix2 R d)).val
    rw [Shape.rowMajor_val_three, Shape.rowMajor_val_two]
    show (b.val * 4096 + s.val) * 4096 + d.val = R.val * 4096 + d.val
    rw [hR]; ring)

theorem biasarr_apply (c : Dev nD) (o : Fin 4096) :
    biasarr m c (ix2 (0 : Fin 1) o) = m ((c.tc : Thread nD τ).loc main_arg2) (ix1 o) := by
  rw [biasarr_eq]
  exact shapeCast_a_1a_apply _ _ _ _

/-! ## The result -/

/-- The layer's output on the arguments as launched. -/
abbrev result (c : Dev nD) : Buf (Elt Ideal) ((c.tc : Thread nD τ).loc main_v3) :=
  loraOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The flat result laid out as 4 × 4096 rows is the layer's output. -/
theorem reshape_out2 (c : Dev nD) :
    shapeCast S4x4096x4096 (out2 m c) shapeCasts_S16384x4096_S4x4096x4096 = result m c := by
  funext i
  obtain ⟨b, s, o, rfl⟩ : ∃ (b : Fin 4) (s o : Fin 4096), i = ix3 b s o := ⟨i 0, i 1, i 2, eq_ix3 i⟩
  have hb := b.isLt; have hs := s.isLt; have ho := o.isLt
  have hR : (⟨4096 * b.val + s.val, by omega⟩ : Fin 16384).val = 4096 * b.val + s.val := rfl
  rw [shapeCast_apply (out2 m c) shapeCasts_S16384x4096_S4x4096x4096 (ix3 b s o)
    (ix2 (⟨4096 * b.val + s.val, by omega⟩ : Fin 16384) o) (by
      rw [Shape.rowMajor_val_two, Shape.rowMajor_val_three]
      show (4096 * b.val + s.val) * 4096 + o.val = (b.val * 4096 + s.val) * 4096 + o.val
      ring)]
  rw [out2_apply, biasarr_apply]
  unfold termW termA
  simp only [xarr_apply m c b s _ _ hR, warr_eq, aarr_eq, barr_eq]
  rfl

/-- What the lines after the region leave in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2) = out2 m c :=
    (Pipeline.withArrays_arr spec0 launch0.win.arr_inj c _ _ 5).trans (final m c)
  exact (congrArg (fun v => shapeCast S4x4096x4096 v shapeCasts_S16384x4096_S4x4096x4096) hw).trans (reshape_out2 m c)

/-! ## The run -/

/-- Every weakly fair execution of the idealized kernel program ends with the result buffer at the layer's output
    and the five arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KVal

end
-- ==== Proof.RefRead.lean ====
/-
  The reference's result, read at an index: it is `loraOut` of the five arguments.

  The host program forms `x · Wᵀ` with one contraction over the 4096 features, adds the bias broadcast along the first
  two axes, forms `(x · Aᵀ) · Bᵀ` with two contractions (over the features, then over the 16 adapter rows), multiplies
  it by the scale and adds. Read one operation at a time, that is the formula of the specification with each operand
  index written by its coordinates.
-/
import proofs.«117332_j42356967473845_1_alg».proof.Defs
import proofs.«117332_j42356967473845_1_alg».proof.Proof.Gen.ReferenceIdeal.Run
import proofs.«117332_j42356967473845_1_alg».proof.Proof.Gen.ReferenceIdeal.Read
import proofs.«117332_j42356967473845_1_alg».proof.Proof.Spec

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.LoraSpec

theorem ref_eq (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S16x4096, .f32⟩ : BufTy).Contents (Elt Ideal))
    (B : (⟨S4096x16, .f32⟩ : BufTy).Contents (Elt Ideal)) :
    val_main_v8 (F := Ideal) x W b A B = loraOut x W b A B := by
  funext i
  have el0 : ∀ k, lidx_main_v0 i k = ix3 (n0 := 4) (n1 := 4096) (n2 := 4096) (i 0) (i 1) k := fun k => funext fun a => by
    match a with | ⟨0, _⟩ => rfl | ⟨1, _⟩ => rfl | ⟨2, _⟩ => rfl
  have er0 : ∀ k, ridx_main_v0 i k = ix2 (n0 := 4096) (n1 := 4096) (i 2) k := fun k => funext fun a => by
    match a with | ⟨0, _⟩ => rfl | ⟨1, _⟩ => rfl
  have eb : idx_main_v1 (idx_main_v2 i) = ix1 (n := 4096) (i 2) := funext fun a => by
    match a with | ⟨0, _⟩ => rfl
  have el5 : ∀ r, lidx_main_v5 i r = ix3 (n0 := 4) (n1 := 4096) (n2 := 16) (i 0) (i 1) r := fun r => funext fun a => by
    match a with | ⟨0, _⟩ => rfl | ⟨1, _⟩ => rfl | ⟨2, _⟩ => rfl
  have er5 : ∀ r, ridx_main_v5 i r = ix2 (n0 := 4096) (n1 := 16) (i 2) r := fun r => funext fun a => by
    match a with | ⟨0, _⟩ => rfl | ⟨1, _⟩ => rfl
  have el4 : ∀ (r : Fin 16) k, lidx_main_v4 (ix3 (n0 := 4) (n1 := 4096) (n2 := 16) (i 0) (i 1) r) k = ix3 (n0 := 4) (n1 := 4096) (n2 := 4096) (i 0) (i 1) k := fun r k => funext fun a => by
    match a with | ⟨0, _⟩ => rfl | ⟨1, _⟩ => rfl | ⟨2, _⟩ => rfl
  have er4 : ∀ (r : Fin 16) k, ridx_main_v4 (ix3 (n0 := 4) (n1 := 4096) (n2 := 16) (i 0) (i 1) r) k = ix2 (n0 := 16) (n1 := 4096) r k := fun r k => funext fun a => by
    match a with | ⟨0, _⟩ => rfl | ⟨1, _⟩ => rfl
  rw [val_main_v8_apply, val_main_v3_apply, val_main_v0_apply, val_main_v2_apply, val_main_v1_apply, val_main_v7_apply,
    val_main_v6_apply, val_main_cst_apply, val_main_v5_apply]
  simp only [el0, er0, eb, el5, er5]
  simp only [val_main_v4_apply]
  simp only [el4, er4]
  rfl

end Cert.ReferenceIdeal.RefValue

end
-- ==== Proof.lean ====
/-
  A linear layer with a low-rank adapter, `(x · Wᵀ + bias) + s · ((x · Aᵀ) · Bᵀ)`, computed by a kernel that walks the
  4096 input features in 8 blocks of 512 and keeps two running totals, against the reference that contracts over all
  features at once.

  Over the extended reals both are one function of the five arguments (`Cert.LoraSpec.loraOut`). The kernel's side:
  after the `k`-th feature block of a block pair its totals are the partial sums over the first `k + 1` blocks
  (an induction along the grid's order), at the eighth block they are the full sums and the stored block is the layer's
  formula on the flattened rows; the 64 written-back blocks tile the result, and the reshapes around the region keep
  row-major positions. The reference's side is its operations read one at a time. The only law between the two is that
  a finite sum may be grouped into consecutive blocks, which holds in any commutative monoid, so the finiteness of the
  inputs is never used. The three frames are the generated frame runs and the reference's run; the idealization changed
  no operation of the kernel, so that conjunct is trivial.
-/
import proofs.«117332_j42356967473845_1_alg».proof.Defs
import proofs.«117332_j42356967473845_1_alg».proof.Proof.Gen.Kernel
import proofs.«117332_j42356967473845_1_alg».proof.Proof.Gen.Kernel.Skeleton
import proofs.«117332_j42356967473845_1_alg».proof.Proof.Gen.Kernel.Launch
import proofs.«117332_j42356967473845_1_alg».proof.Proof.Gen.Kernel.Points
import proofs.«117332_j42356967473845_1_alg».proof.Proof.Gen.Kernel.Frame
import proofs.«117332_j42356967473845_1_alg».proof.Proof.Gen.KernelIdeal
import proofs.«117332_j42356967473845_1_alg».proof.Proof.Gen.KernelIdeal.Skeleton
import proofs.«117332_j42356967473845_1_alg».proof.Proof.Gen.KernelIdeal.Launch
import proofs.«117332_j42356967473845_1_alg».proof.Proof.Gen.KernelIdeal.Points
import proofs.«117332_j42356967473845_1_alg».proof.Proof.Gen.KernelIdeal.Frame
import proofs.«117332_j42356967473845_1_alg».proof.Proof.Gen.ReferenceIdeal
import proofs.«117332_j42356967473845_1_alg».proof.Proof.Gen.ReferenceIdeal.Run
import proofs.«117332_j42356967473845_1_alg».proof.Proof.Gen.ReferenceIdeal.Read
import proofs.«117332_j42356967473845_1_alg».proof.Proof.Gen.Pre_finite_inputs
import proofs.«117332_j42356967473845_1_alg».proof.Proof.KernelRun
import proofs.«117332_j42356967473845_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output of arguments that agree. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
